-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) (main_arg2 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S8192 : Shape := ⟨1, ![8192]⟩
abbrev S8192x1 : Shape := ⟨2, ![8192, 1]⟩
abbrev S1x1 : Shape := ⟨2, ![1, 1]⟩
abbrev S256x4096 : Shape := ⟨2, ![256, 4096]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .i32⟩
  | .hbm, ⟨3, _⟩ => ⟨S8192, .f32⟩
  | .hbm, ⟨4, _⟩ => ⟨S8192x1, .f32⟩
  | .hbm, ⟨5, _⟩ => ⟨S1x1, .f32⟩
  | .hbm, ⟨6, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x1, .f32⟩
  | .local _ .vmem, ⟨5, _⟩ => ⟨S256x1, .f32⟩
  | .local _ .vmem, ⟨6, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S8192_S8192x1 : S8192.ShapeCasts S8192x1
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S256x1_S1x256x1 : S256x1.ShapeCasts S1x256x1
  reduces_S1x256x1_S1 : S1x256x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192 : Shape := ⟨1, ![8192]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .i32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_call2_cst : Ref sig .tc := ⟨.hbm, 33, rfl⟩
abbrev main_call2_v0 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.KernelPieces.lean ====
/-
  What each of the body's three control cases leaves in the output's one-word staging buffer, as a
  function of what the case loads: the inputs' two row blocks x₀, x₁, the block's targets x₂ and, where the
  case reads the buffer before overwriting it, the running contents xo.

    first point  : the buffer is set to the zero word, read back, and the block's partial sum is added;
    middle points: the block's partial sum is added to the running contents;
    last point   : the same, and then the buffer is read back once more and divided by the batch size.

  Each case's stores cover the buffer whole, so what is left is the last store's payload, with a read-back of
  an earlier store in the same case replaced by that store's payload.  Stated for every float instance.
-/
import proofs.«178157_j69449621176854_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle point: the running contents plus the block's partial sum. -/
theorem out_B (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S1x1 .f32) (harg4 : arg4.IsWhole) (hc0 : ¬cond0_0 i) (hc1 : ¬cond0_1 i)
    (x0 : Vec F S256x4096 .f32) (x1 : Vec F S256x4096 .f32) (x2 : Vec F S256x1 .f32) (xo3 : Vec F S1x1 .f32) :
    out0_B_3 c i arg1 harg1 arg2 harg2 arg3 harg3 arg4 harg4 hc0 hc1 x0 x1 x2 xo3 = k0_pay2 (k0_pay4 x0 x1 x2) xo3 := by
  unfold out0_B_3
  rw [View.read_writes_eq_canon _ _ _ (cover0_B_3 c i arg1 harg1 arg2 harg2 arg3 harg3 arg4 harg4 hc0 hc1 x0 x1 x2 xo3)]
  unfold kernelRun0_B
  dsimp only
  sl_unfold_words
  rw [View.canon_unit_zero (S := S1x1) hz]
  simp only [View.readAt_eq_ld, harg1.read_unread, harg2.read_unread, harg3.read_unread, harg4.read_unread,
    View.ld_unit_zero (S := S256x4096) hz, View.ld_unit_zero (S := S256x1) hz, View.ld_unit_zero (S := S1x1) hz]

/-- The first point: the zero word plus the block's partial sum. -/
theorem out_A (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S1x1 .f32) (harg4 : arg4.IsWhole) (hc0 : cond0_0 i) (hc1 : ¬cond0_1 i)
    (x0 : Vec F S256x4096 .f32) (x1 : Vec F S256x4096 .f32) (x2 : Vec F S256x1 .f32) :
    out0_A_3 c i arg1 harg1 arg2 harg2 arg3 harg3 arg4 harg4 hc0 hc1 x0 x1 x2 = k0_pay2 (k0_pay4 x0 x1 x2) (k0_pay1 (F := F)) := by
  unfold out0_A_3
  rw [View.read_writes_eq_canon _ _ _ (cover0_A_3 c i arg1 harg1 arg2 harg2 arg3 harg3 arg4 harg4 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread,
    View.ld_unit_zero (S := S256x4096) hz, View.ld_unit_zero (S := S256x1) hz]

/-- The last point: the running contents plus the block's partial sum, divided by the batch size. -/
theorem out_C (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S1x1 .f32) (harg4 : arg4.IsWhole) (hc0 : ¬cond0_0 i) (hc1 : cond0_1 i)
    (x0 : Vec F S256x4096 .f32) (x1 : Vec F S256x4096 .f32) (x2 : Vec F S256x1 .f32) (xo3 : Vec F S1x1 .f32) :
    out0_C_3 c i arg1 harg1 arg2 harg2 arg3 harg3 arg4 harg4 hc0 hc1 x0 x1 x2 xo3 = k0_pay3 (k0_pay2 (k0_pay4 x0 x1 x2) xo3) := by
  unfold out0_C_3
  rw [View.read_writes_eq_canon _ _ _ (cover0_C_3 c i arg1 harg1 arg2 harg2 arg3 harg3 arg4 harg4 hc0 hc1 x0 x1 x2 xo3)]
  unfold kernelRun0_C
  dsimp only
  sl_unfold_words
  rw [View.canon_cons_unit_zero (S := S1x1) hz, View.readCov_unit_zero (S := S1x1) _ hz]
  simp only [View.readAt_eq_ld, harg1.read_unread, harg2.read_unread, harg3.read_unread, harg4.read_unread,
    View.ld_unit_zero (S := S256x4096) hz, View.ld_unit_zero (S := S256x1) hz, View.ld_unit_zero (S := S1x1) hz]

end Cert.KernelIdeal.Pieces

end
-- ==== Proof.Spec.lean ====
/-
  The mathematics of the claim, stated once over plain functions and imported by both sides.

  For a pair of rows a, b : Fin 4096 → EReal and a target t, with
    num = ∑ a·b,  sq₁ = ∑ a·a,  sq₂ = ∑ b·b,
  the cosine distance is  d = 1 − ½·(1 + num / (√sq₁ · √sq₂)),  the hinge is  h = max (1 − √(d + ε)) 0,
  and the pair's loss is  ½·(t·d + (1 − t)·(h·h)).  The result is the sum of the 8192 pair losses divided
  by 8192.  All of it is read on the extended reals with the exact operations; the four float literals
  (1, ½, ε, 8192) and the zero are kept as the words both programs print, so none is ever evaluated except
  the zero a sum starts from.

  Two laws join the two programs.  One writes (1 − t)·h·h with the product grouped to the left: the extended
  reals' product is associative.  The other adds the 8192 losses block by block, 32 blocks of 256 rows, one
  block after the other starting from zero: a sum over Fin 8192 is the sum over the 32 blocks of the sum
  inside each block, because addition on the extended reals is commutative and associative.  Neither law
  needs the summands to be finite.
-/
import Idealize.ShloMosaic.PureOps.Ideal
import Idealize.ShloMosaic.PureOps.Ideal.Laws
import Idealize.ShloMosaic.Lib.ValueIdx

noncomputable section

namespace Cert.Contrastive

open Idealize.ShloMosaic Idealize.ShloMosaic.ValueIdx

/-! ## The literals, as the words both programs print -/

abbrev one : EReal := Ideal.ofBits .f32 0x3F800000#32
abbrev half : EReal := Ideal.ofBits .f32 0x3F000000#32
abbrev eps : EReal := Ideal.ofBits .f32 0x3089705F#32
abbrev zeroW : EReal := Ideal.ofBits .f32 0x00000000#32
abbrev batch : EReal := Ideal.ofBits .f32 0x46000000#32

theorem zeroW_eq : zeroW = 0 := Ideal.ofBits_zero_f32

/-! ## One pair of rows -/

/-- The cosine distance of a pair of rows from its three sums: 1 − ½·(1 + num / (√sq₁ · √sq₂)). -/
def cosDist (num sq1 sq2 : EReal) : EReal :=
  one - half * (one + Ideal.div num (Ideal.sqrt sq1 * Ideal.sqrt sq2))

/-- The hinge of a distance: max (1 − √(d + ε)) 0. -/
def hingeAt (d : EReal) : EReal := max (one - Ideal.sqrt (d + eps)) zeroW

/-- The loss of one pair: ½·(t·d + (1 − t)·(h·h)). -/
def pairLoss (num sq1 sq2 t : EReal) : EReal :=
  half * (t * cosDist num sq1 sq2 + (one - t) * (hingeAt (cosDist num sq1 sq2) * hingeAt (cosDist num sq1 sq2)))

/-- The same loss with the last product grouped to the left, ((1 − t)·h)·h: the product is associative. -/
theorem pairLoss_left (num sq1 sq2 t : EReal) :
    half * (t * cosDist num sq1 sq2 + (one - t) * hingeAt (cosDist num sq1 sq2) * hingeAt (cosDist num sq1 sq2))
      = pairLoss num sq1 sq2 t := by
  unfold pairLoss
  rw [mul_assoc]

/-! ## The whole batch -/

/-- Row r's loss, from the two arrays read by (row, column) and the targets read by row. -/
def rowLoss (A B : Fin 8192 → Fin 4096 → EReal) (tv : Fin 8192 → EReal) (r : Fin 8192) : EReal :=
  pairLoss (∑ k : Fin 4096, A r k * B r k) (∑ k : Fin 4096, A r k * A r k) (∑ k : Fin 4096, B r k * B r k) (tv r)

/-- The mean of the 8192 losses. -/
def meanLoss (A B : Fin 8192 → Fin 4096 → EReal) (tv : Fin 8192 → EReal) : EReal :=
  Ideal.div (∑ r : Fin 8192, rowLoss A B tv r) batch

/-- An array of shape [8192, 4096] read by (row, column). -/
abbrev rowsOf (X : (⟨2, ![8192, 4096]⟩ : Shape).Idx → EReal) : Fin 8192 → Fin 4096 → EReal := fun r k => X (ix2 r k)

/-- The integer targets read as reals, row by row. -/
abbrev targetsOf (T : (⟨1, ![8192]⟩ : Shape).Idx → BitVec 32) : Fin 8192 → EReal := fun r => (((T (ix1 r)).toInt : ℝ) : EReal)

/-! ## Adding block by block -/

/-- Row r of block k. -/
abbrev blockRow (k : Fin 32) (r : Fin 256) : Fin 8192 := ⟨256 * k.val + r.val, by omega⟩

/-- The sum over all 8192 rows is the sum over the 32 blocks of the sum over each block's 256 rows. -/
theorem sum_blocks {M : Type*} [AddCommMonoid M] (f : Fin 8192 → M) :
    ∑ k : Fin 32, ∑ r : Fin 256, f (blockRow k r) = ∑ i : Fin 8192, f i := by
  rw [← Fintype.sum_prod_type' (f := fun k r => f (blockRow k r))]
  refine Fintype.sum_equiv (finProdFinEquiv (m := 32) (n := 256)) _ _ fun p => congrArg f (Fin.ext ?_)
  show 256 * p.1.val + p.2.val = p.2.val + 256 * p.1.val
  omega

/-- Adding the blocks one after the other, from the zero word: after block n the sum of blocks 0 … n. -/
def running (P : ℕ → EReal) : ℕ → EReal
  | 0 => zeroW + P 0
  | n + 1 => running P n + P (n + 1)

theorem running_eq (P : ℕ → EReal) (n : ℕ) : running P n = ∑ k ∈ Finset.range (n + 1), P k := by
  induction n with
  | zero => simp [running, zeroW_eq]
  | succ n ih => rw [running, ih, Finset.sum_range_succ _ (n + 1)]

/-- So after the last of 32 blocks, each given on its own index below 32, the running sum is the sum over the blocks. -/
theorem running_last (Q : Fin 32 → EReal) (P : ℕ → EReal) (hP : ∀ k : Fin 32, P k.val = Q k) :
    running P 31 = ∑ k : Fin 32, Q k := by
  rw [running_eq, Finset.sum_range]
  exact Finset.sum_congr rfl fun k _ => hP k

end Cert.Contrastive

end
-- ==== Proof.KernelPay.lean ====
/-
  The body's arithmetic read at an index, on the extended reals.

  The body loads a block of 256 rows of each input, x₀ and x₁ (256 × 4096), and the block's 256 targets x₂
  (256 × 1).  Row by row it forms the three sums over the 4096 columns — ∑ x₀·x₁, ∑ x₀·x₀, ∑ x₁·x₁ —, each a
  lane reduction kept as a column, then pointwise on the 256 × 1 column the cosine distance, the hinge and
  the pair's loss, and last adds the 256 losses into one number: a reduction of the column, viewed
  1 × 256 × 1, over its last two axes.  So the one entry of the body's partial result is the sum over the
  block's 256 rows of the pair losses of those rows.

  The other three payloads are one word each: the zero word the first point stores; the running contents
  plus the partial sum; the running contents divided by the batch size.
-/
import proofs.«178157_j69449621176854_1_alg».proof.Proof.Gen.KernelIdeal.Skeleton
import proofs.«178157_j69449621176854_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Pay

open Cert.KernelIdeal Cert.KernelIdeal.Gen Cert.Contrastive

/-! ## Two layout steps and two reductions -/

/-- A vector of length a viewed as a column [a, 1] reads, at (i, u), the vector at i. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- A lane sum of a 256 × 4096 block kept as a column: at row r, the sum over the 4096 columns of the block's row r. -/
theorem rowSum_apply (src : FVec Ideal S256x4096 .f32) (h : S256x4096.Reduces [1] S256) (hφ : FKind.Formats .f32)
    (hacc : (0x00000000#32 : BitVec FTy.f32.bits) = FKind.add.neutral .f32 hφ) (hc : S256.ShapeCasts S256x1)
    (r : Fin 256) (u : Fin 1) :
    shapeCast S256x1 (multiReduction .add [1] S256 src 0x00000000#32 h hφ hacc) hc (ix2 r u)
      = ∑ k : Fin 4096, src (ix2 r k) := by
  refine (shapeCast_col_apply _ hc r u).trans ?_
  refine (Ideal.multiReduction_add_single src _ h hφ hacc (ix1 r)).trans ?_
  refine Finset.sum_congr rfl fun k _ => congrArg src ?_
  exact funext fun a => Fin.ext (by match a with | ⟨0, _⟩ => rfl | ⟨1, _⟩ => rfl)

/-- A 256 × 1 column viewed 1 × 256 × 1 and added over its last two axes into one number: the sum of its 256 entries. -/
theorem colSum_apply (v : FVec Ideal S256x1 .f32) (h1 : S256x1.ShapeCasts S1x256x1) (h2 : S1x256x1.Reduces [1, 2] S1)
    (hφ : FKind.Formats .f32) (hacc : (0x00000000#32 : BitVec FTy.f32.bits) = FKind.add.neutral .f32 hφ)
    (h3 : S1.ShapeCasts S1x1x1) (j : S1x1x1.Idx) :
    shapeCast S1x1x1 (multiReduction .add [1, 2] S1 (shapeCast S1x256x1 v h1) 0x00000000#32 h2 hφ hacc) h3 j
      = ∑ r : Fin 256, v (ix2 r (0 : Fin 1)) := by
  show multiReduction .add [1, 2] S1 (shapeCast S1x256x1 v h1) 0x00000000#32 h2 hφ hacc (Shape.reshapeEquiv h3 j) = _
  refine (Ideal.multiReduction_add_total _ _ h2 (fun b => by match b with | ⟨0, _⟩ => rfl) hφ hacc _).trans ?_
  show ∑ i : S1x256x1.Idx, v (Shape.reshapeEquiv h1 i) = _
  rw [Equiv.sum_comp (Shape.reshapeEquiv h1) v, sum_idx2]
  exact Finset.sum_congr rfl fun r _ => Fin.sum_univ_one _

/-! ## The partial sum of a block -/

/-- The loss of row r of a block, from the block's loads. -/
def blockRowLoss (x0 x1 : FVec Ideal S256x4096 .f32) (x2 : FVec Ideal S256x1 .f32) (r : Fin 256) : EReal :=
  pairLoss (∑ k : Fin 4096, x0 (ix2 r k) * x1 (ix2 r k)) (∑ k : Fin 4096, x0 (ix2 r k) * x0 (ix2 r k))
    (∑ k : Fin 4096, x1 (ix2 r k) * x1 (ix2 r k)) (x2 (ix2 r (0 : Fin 1)))

/-- The body's partial result, at its one index: the sum of the block's 256 row losses. -/
theorem pay4_apply (x0 x1 : FVec Ideal S256x4096 .f32) (x2 : FVec Ideal S256x1 .f32) (j : S1x1x1.Idx) :
    k0_pay4 (F := Ideal) x0 x1 x2 j = ∑ r : Fin 256, blockRowLoss x0 x1 x2 r := by
  unfold k0_pay4
  dsimp only
  refine (colSum_apply _ _ _ _ _ _ j).trans ?_
  refine Finset.sum_congr rfl fun r _ => ?_
  have hnum := rowSum_apply (mulf x0 x1) Facts₀.reduces_S256x4096_S256 (.inl rfl) rfl Facts₀.shapeCasts_S256_S256x1 r 0
  have hsq1 := rowSum_apply (mulf x0 x0) Facts₀.reduces_S256x4096_S256 (.inl rfl) rfl Facts₀.shapeCasts_S256_S256x1 r 0
  have hsq2 := rowSum_apply (mulf x1 x1) Facts₀.reduces_S256x4096_S256 (.inl rfl) rfl Facts₀.shapeCasts_S256_S256x1 r 0
  have ht : shapeCast S256x1 x2 Facts₀.shapeCasts_S256x1_S256x1 (ix2 r (0 : Fin 1)) = x2 (ix2 r (0 : Fin 1)) :=
    congrFun (shapeCast_self x2 _) _
  have e01 : ∑ k : Fin 4096, x0 (ix2 r k) * x1 (ix2 r k) = ∑ k : Fin 4096, (mulf x0 x1) (ix2 r k) :=
    Finset.sum_congr rfl fun k _ => rfl
  have e00 : ∑ k : Fin 4096, x0 (ix2 r k) * x0 (ix2 r k) = ∑ k : Fin 4096, (mulf x0 x0) (ix2 r k) :=
    Finset.sum_congr rfl fun k _ => rfl
  have e11 : ∑ k : Fin 4096, x1 (ix2 r k) * x1 (ix2 r k) = ∑ k : Fin 4096, (mulf x1 x1) (ix2 r k) :=
    Finset.sum_congr rfl fun k _ => rfl
  unfold blockRowLoss
  rw [← pairLoss_left, e01, e00, e11, ← hnum, ← hsq1, ← hsq2, ← ht]
  rfl

/-! ## The three one-word payloads -/

/-- The first point's store: the zero word. -/
theorem pay1_apply (y : S1x1.Idx) : k0_pay1 (F := Ideal) y = zeroW := rfl

/-- The accumulation: the running contents plus the partial result's one entry. -/
theorem pay2_apply (p : FVec Ideal S1x1x1 .f32) (acc : FVec Ideal S1x1 .f32) (y : S1x1.Idx) :
    k0_pay2 (F := Ideal) p acc y = acc y + p (fun a => ⟨(![0, 0, 0] : Fin 3 → Nat) a, Facts₀.inpos_S1x1x1_p0_0_0 a⟩) := by
  unfold k0_pay2
  show shapeCast S1x1 acc _ y + _ = _
  rw [shapeCast_self]
  rfl

/-- The last point's second store: the running contents divided by the batch size. -/
theorem pay3_apply (acc : FVec Ideal S1x1 .f32) (y : S1x1.Idx) :
    k0_pay3 (F := Ideal) acc y = Ideal.div (acc y) batch := by
  unfold k0_pay3
  show Ideal.div (shapeCast S1x1 acc _ y) _ = _
  rw [shapeCast_self]
  rfl

end Cert.KernelIdeal.Pay

end
-- ==== Proof.KernelSum.lean ====
/-
  The running contents of the output's staging word, point by point.

  At grid point t the three input windows hold block t of their arrays: rows 256·t … 256·t + 255 of the two
  8192 × 4096 inputs, and entries 256·t … of the 8192 × 1 target column.  The body's partial result at that
  point is therefore the sum of the pair losses of those 256 rows.  The first point stores zero and adds its
  partial sum; every later point adds its own to what the point before left; the last point then divides by
  the batch size.  By induction on the point, after point n < 31 the word holds the blocks' partial sums
  added in order from the zero word, and after point 31 that running sum divided by the batch size.  Added up
  over the 32 blocks the partial sums are the sum over all 8192 rows, so the last point leaves the mean loss.
-/
import proofs.«178157_j69449621176854_1_alg».proof.Proof.KernelPieces
import proofs.«178157_j69449621176854_1_alg».proof.Proof.KernelPay

noncomputable section

open Idealize.ShloMosaic Idealize.ShloMosaic.TcCoe Idealize.SL.Sem Idealize.ShloMosaic.ValueIdx
open Idealize.ShloMosaic.Pipeline (Dat)

namespace Cert.KernelIdeal.Sum

open Cert.KernelIdeal Cert.KernelIdeal.Gen Cert.Contrastive

variable (m : (ℓ : Loc nD τ sig) → Buf (Elt Ideal) ℓ)

/-! ## The arrays as the region finds them, and the windows' blocks, at their literal shapes -/

abbrev arr0 (c : Dev nD) : FVec Ideal S8192x4096 .f32 := V m c main_arg0
abbrev arr1 (c : Dev nD) : FVec Ideal S8192x4096 .f32 := V m c main_arg1
abbrev tcol (c : Dev nD) : FVec Ideal S8192x1 .f32 := V m c main_v1
abbrev blk0 (c : Dev nD) (t : Fin cfg0.N) : FVec Ideal S256x4096 .f32 := iblk m c 0 t
abbrev blk1 (c : Dev nD) (t : Fin cfg0.N) : FVec Ideal S256x4096 .f32 := iblk m c 1 t
abbrev blk2 (c : Dev nD) (t : Fin cfg0.N) : FVec Ideal S256x1 .f32 := iblk m c 2 t

/-- Each input window's block index at point t is (t, 0). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Entry (r, k) of block t of the first input is entry (256·t + r, k) of the array. -/
theorem blk0_apply (c : Dev nD) (t : Fin cfg0.N) (r : Fin 256) (k : Fin 4096) (hr : 256 * t.val + r.val < 8192) :
    blk0 m c t (ix2 r k) = arr0 m c (ix2 ⟨256 * t.val + r.val, hr⟩ k) := by
  show iblk m c 0 t (ix2 r k) = V m c main_arg0 _
  unfold iblk
  rw [View.read_apply]
  show V m c main_arg0 _ = V m c main_arg0 _
  congr 1
  funext a
  apply Fin.ext
  match a with
  | ⟨0, _⟩ => show win0_0.index t 0 * 256 + 1 * r.val = 256 * t.val + r.val; rw [(idx0 t).1]; omega
  | ⟨1, _⟩ => show win0_0.index t 1 * 4096 + 1 * k.val = k.val; rw [(idx0 t).2]; omega

/-- The same for the second input. -/
theorem blk1_apply (c : Dev nD) (t : Fin cfg0.N) (r : Fin 256) (k : Fin 4096) (hr : 256 * t.val + r.val < 8192) :
    blk1 m c t (ix2 r k) = arr1 m c (ix2 ⟨256 * t.val + r.val, hr⟩ k) := by
  show iblk m c 1 t (ix2 r k) = V m c main_arg1 _
  unfold iblk
  rw [View.read_apply]
  show V m c main_arg1 _ = V m c main_arg1 _
  congr 1
  funext a
  apply Fin.ext
  match a with
  | ⟨0, _⟩ => show win0_1.index t 0 * 256 + 1 * r.val = 256 * t.val + r.val; rw [(idx1 t).1]; omega
  | ⟨1, _⟩ => show win0_1.index t 1 * 4096 + 1 * k.val = k.val; rw [(idx1 t).2]; omega

/-- Entry (r, 0) of block t of the target column is entry (256·t + r, 0) of the column. -/
theorem blk2_apply (c : Dev nD) (t : Fin cfg0.N) (r : Fin 256) (u : Fin 1) (hr : 256 * t.val + r.val < 8192) :
    blk2 m c t (ix2 r u) = tcol m c (ix2 ⟨256 * t.val + r.val, hr⟩ u) := by
  show iblk m c 2 t (ix2 r u) = V m c main_v1 _
  unfold iblk
  rw [View.read_apply]
  show V m c main_v1 _ = V m c main_v1 _
  congr 1
  funext a
  apply Fin.ext
  match a with
  | ⟨0, _⟩ => show win0_2.index t 0 * 256 + 1 * r.val = 256 * t.val + r.val; rw [(idx2 t).1]; omega
  | ⟨1, _⟩ => show win0_2.index t 1 * 1 + 1 * u.val = u.val; rw [(idx2 t).2]; omega

/-! ## The partial sum of block k, and the running sum -/

/-- The sum of the pair losses of block k's 256 rows (zero past the grid, where nothing is read). -/
def partialAt (c : Dev nD) (k : ℕ) : EReal :=
  if h : k < cfg0.N then ∑ r : Fin 256, Pay.blockRowLoss (blk0 m c ⟨k, h⟩) (blk1 m c ⟨k, h⟩) (blk2 m c ⟨k, h⟩) r else 0

/-- After point n < 31 the staging word holds the partial sums of blocks 0 … n added in order from the zero word. -/
theorem outsAt_mid (c : Dev nD) : ∀ (n : ℕ) (hn : n < cfg0.N), n < 31 →
    outsAt0 m c n hn = fun _ => running (partialAt m c) n
  | 0, hn, _ => by
    rw [outsAt0_A m c ⟨0, hn⟩ rfl (by dsimp only; omega), Pieces.out_A]
    funext y
    rw [Pay.pay2_apply, Pay.pay1_apply, Pay.pay4_apply]
    show zeroW + _ = zeroW + partialAt m c 0
    unfold partialAt
    rw [dif_pos hn]
  | n + 1, hn, hlt => by
    have hN : cfg0.N = 32 := N_0
    rw [outsAt0_B m c ⟨n + 1, hn⟩ (by dsimp only; omega) (by dsimp only; omega), Pieces.out_B]
    funext y
    rw [Pay.pay2_apply, Pay.pay4_apply]
    show outsAt0 m c n _ y + _ = running (partialAt m c) n + partialAt m c (n + 1)
    rw [outsAt_mid c n _ (by omega)]
    unfold partialAt
    rw [dif_pos hn]

/-- After the last point it holds that running sum, through block 31, divided by the batch size. -/
theorem outsAt_last (c : Dev nD) (h31 : 31 < cfg0.N) :
    outsAt0 m c 31 h31 = fun _ => Ideal.div (running (partialAt m c) 31) batch := by
  rw [outsAt0_C m c ⟨31, h31⟩ (by dsimp only; omega) (by dsimp only), Pieces.out_C]
  funext y
  rw [Pay.pay3_apply, Pay.pay2_apply, Pay.pay4_apply]
  show Ideal.div (outsAt0 m c 30 _ y + _) batch = Ideal.div (running (partialAt m c) 30 + partialAt m c 31) batch
  rw [outsAt_mid m c 30 _ (by omega)]
  unfold partialAt
  rw [dif_pos h31]

/-! ## The running sum is the sum over all rows -/

/-- The targets as the region finds them, row by row. -/
abbrev targetRows (c : Dev nD) : Fin 8192 → EReal := fun r => tcol m c (ix2 r (0 : Fin 1))

/-- Block k's partial sum is the sum of the row losses of rows 256·k … 256·k + 255. -/
theorem partialAt_eq (c : Dev nD) (k : Fin 32) :
    partialAt m c k.val = ∑ r : Fin 256, rowLoss (rowsOf (arr0 m c)) (rowsOf (arr1 m c)) (targetRows m c) (blockRow k r) := by
  have hN : cfg0.N = 32 := N_0
  have hk : k.val < cfg0.N := by omega
  unfold partialAt
  rw [dif_pos hk]
  refine Finset.sum_congr rfl fun r _ => ?_
  have hr : 256 * k.val + r.val < 8192 := by omega
  unfold Pay.blockRowLoss rowLoss
  simp only [blk0_apply m c ⟨k.val, hk⟩ r _ hr, blk1_apply m c ⟨k.val, hk⟩ r _ hr, blk2_apply m c ⟨k.val, hk⟩ r _ hr]

/-- So the last point leaves the mean of the 8192 pair losses. -/
theorem outsAt_final (c : Dev nD) (h31 : 31 < cfg0.N) :
    outsAt0 m c 31 h31 = fun _ => meanLoss (rowsOf (arr0 m c)) (rowsOf (arr1 m c)) (targetRows m c) := by
  rw [outsAt_last m c h31]
  funext y
  unfold meanLoss
  rw [running_last _ (partialAt m c) (partialAt_eq m c), sum_blocks]

end Cert.KernelIdeal.Sum

end
-- ==== Proof.KernelRun.lean ====
/-
  From the staging word to the program's result.

  The target column the region finds is what the two host lines before it wrote: the integer targets read as
  reals, viewed as a column.  The output window is written back once, after the last point, and its one
  block is the whole 1 × 1 array; so that array ends holding what the last point left, the mean loss.  The
  host line after the region views the 1 × 1 array as a scalar.  The argument arrays are read and never
  written.
-/
import proofs.«178157_j69449621176854_1_alg».proof.Proof.KernelSum
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.Contrastive Cert.KernelIdeal.Sum

variable (m : (ℓ : Loc nD τ sig) → Buf (Elt Ideal) ℓ) (ρ : Dev nD → PrngReg)

/-! ## The target column -/

/-- The column the region finds: the integer targets read as reals, viewed 8192 × 1. -/
theorem tcol_eq (c : Dev nD) :
    tcol m c = shapeCast S8192x1 (sitofp (F := Ideal) .f32 (m ((c : Thread nD τ).loc main_arg2))) Facts₀.shapeCasts_S8192_S8192x1 := by
  show StableHlo.after hostOps0 (fun b => m (c, b)) (Proc.devRef .tc main_v1) = _
  after_results
  rfl

/-- Row r's target is the r-th integer read as a real. -/
theorem targetRows_eq (c : Dev nD) : targetRows m c = targetsOf (m ((c : Thread nD τ).loc main_arg2)) := by
  funext r
  show tcol m c (ix2 r (0 : Fin 1)) = _
  rw [tcol_eq, Pay.shapeCast_col_apply]
  rfl

/-! ## The one write-back -/

/-- The mean loss of the arrays as the region finds them. -/
abbrev value (c : Dev nD) : EReal := meanLoss (rowsOf (arr0 m c)) (rowsOf (arr1 m c)) (targetRows m c)

/-- The 1 × 1 result array holding it. -/
abbrev result (c : Dev nD) : Buf (Elt Ideal) ((c : Thread nD τ).loc main_v2) := fun _ => value m c

/-- The last grid point. -/
abbrev tLast : Fin cfg0.N := ⟨31, by decide⟩

/-- The output window is written back at the last point only, and what is written is the mean loss. -/
theorem flushed_eq (c : Dev nD) (t : Fin cfg0.N) (hf : (cfg0.win 3).flush t = true) :
    (dats m 0 c).flushed 3 t = ((cfg0.win 3).blk t).view.read (Elt Ideal) (result m c) := by
  have hN : cfg0.N = 32 := N_0
  have h31 : t.val = 31 := by have := (flush0_3 t).mp hf; have := t.isLt; omega
  obtain rfl : t = tLast := Fin.ext h31
  show (cfg0.win 3).cut (grid0.coords tLast) ((dats m 0 c).after 3 tLast) = _
  rw [after0_3, outsAt_final]
  rfl

/-- That block is the whole array, so the array ends holding the mean loss. -/
theorem final (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v2).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 1 from by decide +kernel]; omega⟩

/-! ## The host line after the region -/

/-- The scalar the program returns: the 1 × 1 array viewed as a scalar, the mean loss. -/
theorem tail_eq (c : Dev nD) :
    Pipeline.afterTail₀ cfgs (dats m) 0 (V0 m) [hostOps1] c main_v3 = fun _ => value m c := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = result m c :=
    (Pipeline.withArrays_arr spec0 launch0.win.arr_inj c _ _ 3).trans (final m c)
  rw [hw]
  rfl

/-! ## The run -/

/-- Every weakly fair execution ends with the result at the mean loss of the launch contents of the three
    arguments, and the arguments as launched. -/
theorem run : θ_run defs (onTc (τ := τ) (main (F := Ideal))) ⟨m, fun _ => 0, ρ⟩ fun r => ∀ c : Dev nD,
      r.2.mem ((c.tc : Thread nD τ).loc main_v3)
        = (fun _ => meanLoss (rowsOf (m ((c.tc : Thread nD τ).loc main_arg0))) (rowsOf (m ((c.tc : Thread nD τ).loc main_arg1)))
            (targetsOf (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      (((h c).2 main_v3 (Pipeline.mem_restRefs_of main_v3 (by decide) (by decide))).trans (tail_eq m c)).trans (by
        show (fun _ => meanLoss (rowsOf (arr0 m c)) (rowsOf (arr1 m c)) (targetRows m c)) = _
        rw [targetRows_eq, show arr0 m c = m ((c.tc : Thread nD τ).loc main_arg0) from V_main_arg0 m c,
          show arr1 m c = m ((c.tc : Thread nD τ).loc main_arg1) from V_main_arg1 m c]),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Run

end
-- ==== Proof.RefValue.lean ====
/-
  The reference, read as the mean of the 8192 pair losses.

  Its run ends with one number: the host's sum, from the zero word, of a vector of 8192 entries, divided by
  8192.  Entry r of that vector is, operation by operation, the pair loss of row r: the three row sums are
  the host's sums over the 4096 columns (each from the zero word, which adds nothing), the two norms their
  square roots, the target the integer read as a real; every other step acts on entry r alone, and a
  broadcast scalar reads as itself at every entry.
-/
import proofs.«178157_j69449621176854_1_alg».proof.Proof.Gen.ReferenceIdeal.Read
import proofs.«178157_j69449621176854_1_alg».proof.Proof.Spec

noncomputable section

open Idealize.ShloMosaic Idealize.ShloMosaic.ValueIdx

namespace Cert.ReferenceIdeal.RefValue

open Cert.ReferenceIdeal Cert.ReferenceIdeal.Gen Cert.ReferenceIdeal.Read Cert.Contrastive

/-- A vector's index is its one coordinate; -/
def idxEquiv1 {n : Nat} : (⟨1, ![n]⟩ : Shape).Idx ≃ Fin n where
  toFun i := i 0
  invFun a := ix1 a
  left_inv i := (eq_ix1 i).symm
  right_inv _ := rfl

/-- so a sum over a vector's indices is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The three row sums read the arrays at (r, k). -/
theorem idx_v1 (r : Fin 8192) (k : Fin 4096) : idx_main_v1 (ix1 r) k = ix2 r k :=
  funext fun a => Fin.ext (by match a with | ⟨0, _⟩ => rfl | ⟨1, _⟩ => rfl)
theorem idx_call0_v1 (r : Fin 8192) (k : Fin 4096) : idx_main_call0_v1 (ix1 r) k = ix2 r k :=
  funext fun a => Fin.ext (by match a with | ⟨0, _⟩ => rfl | ⟨1, _⟩ => rfl)
theorem idx_call1_v1 (r : Fin 8192) (k : Fin 4096) : idx_main_call1_v1 (ix1 r) k = ix2 r k :=
  funext fun a => Fin.ext (by match a with | ⟨0, _⟩ => rfl | ⟨1, _⟩ => rfl)

/-- Entry r of the vector the reference sums is the pair loss of row r. -/
theorem row_apply (x0 x1 : (⟨S8192x4096, .f32⟩ : BufTy).Contents (Elt Ideal)) (x2 : (⟨S8192, .i32⟩ : BufTy).Contents (Elt Ideal))
    (r : Fin 8192) :
    val_main_v26 (F := Ideal) x0 x1 x2 (ix1 r) = rowLoss (rowsOf x0) (rowsOf x1) (targetsOf x2) r := by
  simp only [val_main_v26_apply, val_main_v25_apply, val_main_cst_6_apply, val_main_v24_apply, val_main_v19_apply, val_main_v23_apply, val_main_v12_apply, val_main_v21_apply, val_main_v20_apply, val_main_cst_5_apply, val_main_v22_apply, val_main_v18_apply, val_main_call2_v0_apply, val_main_call2_cst_apply, val_main_v17_apply, val_main_v16_apply, val_main_cst_4_apply, val_main_v15_apply, val_main_v14_apply, val_main_v13_apply, val_main_cst_3_apply, val_main_v11_apply, val_main_v10_apply, val_main_cst_2_apply, val_main_v9_apply, val_main_v8_apply, val_main_cst_1_apply, val_main_v7_apply, val_main_v6_apply, val_main_cst_0_apply, val_main_v5_apply, val_main_v4_apply, val_main_v3_apply, val_main_v2_apply, val_main_v1_apply, val_main_call0_v1_apply, val_main_call1_v1_apply, val_main_cst_apply, val_main_call0_cst_apply, val_main_call1_cst_apply, val_main_v0_apply, val_main_call0_v0_apply, val_main_call1_v0_apply,
    idx_v1, idx_call0_v1, idx_call1_v1]
  simp only [rowLoss, pairLoss, cosDist, hingeAt, Ideal.mulf_def, Ideal.addf_def, Ideal.subf_def, Ideal.hostDivf_def,
    Ideal.hostUnary_sqrt_def, Ideal.maximumf_def, Ideal.ofBits_def, Ideal.ofBits_zero_f32, zero_add]
  rfl

/-- The reference's result: the mean of the 8192 pair losses. -/
theorem result_eq (x0 x1 : (⟨S8192x4096, .f32⟩ : BufTy).Contents (Elt Ideal)) (x2 : (⟨S8192, .i32⟩ : BufTy).Contents (Elt Ideal)) :
    val_main_v28 (F := Ideal) x0 x1 x2 = fun _ => meanLoss (rowsOf x0) (rowsOf x1) (targetsOf x2) := by
  funext i
  rw [val_main_v28_apply, val_main_v27_apply, sum_idx1]
  simp only [row_apply, val_main_cst_7_apply, val_main_cst_8_apply, Ideal.hostDivf_def, Ideal.ofBits_def,
    Ideal.ofBits_zero_f32, zero_add]
  rfl

end Cert.ReferenceIdeal.RefValue

end
-- ==== Proof.lean ====
/-
  The certificate of the cosine-similarity contrastive loss kernel against its jnp reference, over the
  extended reals.

  Both programs take two arrays of 8192 rows by 4096 columns and 8192 integer targets.  For each row they form
  the three sums num = ∑ a·b, sq₁ = ∑ a·a, sq₂ = ∑ b·b over the columns, the cosine distance
  d = 1 − ½·(1 + num / (√sq₁ · √sq₂)), the hinge h = max (1 − √(d + ε)) 0 and the pair's loss
  ½·(t·d + (1 − t)·h²) with t the target read as a real, and return the sum of the 8192 losses divided by 8192.
  Every literal (1, ½, ε, 8192, 0) is the same word on both sides, the square root and the quotient are the
  same exact functions in a kernel and on the host, and a change of grouping is all that separates the two:

    the kernel writes (1 − t)·h·h grouped to the left where the reference squares h first (the product of
      extended reals is associative);
    the kernel adds the losses 256 rows at a time, one grid point after the other from zero, where the
      reference adds all 8192 at once (addition of extended reals is commutative and associative, and each
      sum starts from a zero that adds nothing).

  Neither step needs a summand to be finite, so the precondition is never opened.

  The frames of the two kernel programs are the generated ones.  The reference has no kernel: its frame is its
  generated run with the result dropped.  The idealization rewrote nothing, so the sanctioned-idealization
  claim is trivially true.  The value claim puts the two runs side by side: the kernel's result is read off its
  generated frame run (the staging word point by point, the one write-back, the scalar view after the
  region), the reference's off its generated run and stage-by-stage reading, and both are the same mean loss
  of arguments that agree.
-/
import proofs.«178157_j69449621176854_1_alg».proof.Defs
import proofs.«178157_j69449621176854_1_alg».proof.Proof.Gen.Kernel
import proofs.«178157_j69449621176854_1_alg».proof.Proof.Gen.Kernel.Skeleton
import proofs.«178157_j69449621176854_1_alg».proof.Proof.Gen.Kernel.Launch
import proofs.«178157_j69449621176854_1_alg».proof.Proof.Gen.Kernel.Points
import proofs.«178157_j69449621176854_1_alg».proof.Proof.Gen.Kernel.Frame
import proofs.«178157_j69449621176854_1_alg».proof.Proof.Gen.KernelIdeal
import proofs.«178157_j69449621176854_1_alg».proof.Proof.Gen.KernelIdeal.Skeleton
import proofs.«178157_j69449621176854_1_alg».proof.Proof.Gen.KernelIdeal.Launch
import proofs.«178157_j69449621176854_1_alg».proof.Proof.Gen.KernelIdeal.Points
import proofs.«178157_j69449621176854_1_alg».proof.Proof.Gen.KernelIdeal.Frame
import proofs.«178157_j69449621176854_1_alg».proof.Proof.Gen.ReferenceIdeal
import proofs.«178157_j69449621176854_1_alg».proof.Proof.Gen.ReferenceIdeal.Run
import proofs.«178157_j69449621176854_1_alg».proof.Proof.Gen.ReferenceIdeal.Read
import proofs.«178157_j69449621176854_1_alg».proof.Proof.Gen.Pre_finite_inputs
import proofs.«178157_j69449621176854_1_alg».proof.Proof.KernelRun
import proofs.«178157_j69449621176854_1_alg».proof.Proof.RefValue
import Idealize.ShloMosaic.Adequacy
import Idealize.ShloMosaic.Init

noncomputable section

namespace Cert.Proof

open Idealize.ShloMosaic Idealize.ShloMosaic.TcCoe Idealize.SL.Sem Cert.Contrastive

/-- The word-level kernel terminates without fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten, so there is nothing to preserve. -/
theorem preserves : Cert.preserves_Kernel_KernelIdeal := trivial

/-- From arguments that agree both programs end at the mean of the 8192 pair losses. -/
theorem algebraic : Cert.algebraic_KernelIdeal_ReferenceIdeal := by
  intro m ρ m' ρ' _ hagree
  refine ⟨fun c => fun _ => meanLoss
      (rowsOf (m ((c.tc : Thread Cert.KernelIdeal.nD Cert.KernelIdeal.τ).loc Cert.KernelIdeal.main_arg0)))
      (rowsOf (m ((c.tc : Thread Cert.KernelIdeal.nD Cert.KernelIdeal.τ).loc Cert.KernelIdeal.main_arg1)))
      (targetsOf (m ((c.tc : Thread Cert.KernelIdeal.nD Cert.KernelIdeal.τ).loc Cert.KernelIdeal.main_arg2))),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
